-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x128x128 : Shape := ⟨4, ![16, 80, 128, 128]⟩
abbrev S_ : Shape := ⟨0, ![]⟩

class Facts : Prop where
  bcast_S_S16x80x128x128 : S_.BroadcastsInDim S16x80x128x128 (![] : Fin 0 → Fin S16x80x128x128.rank)
  reducesTo_S16x80x128x128_S_d0_1_2_3 : S16x80x128x128.ReducesTo [0, 1, 2, 3] S_
  h_S_ : 0 < S_.numel

variable [Facts]

def fn {F : FTy → Type} [FloatOps F] (main_arg0 : FVec F S16x80x128x128 .f32) : IVec S_ 1 :=
  let main_v0 : FVec F S16x80x128x128 .f32 := Host.absf main_arg0
  let main_cst : FVec F S_ .f32 := constant S_ .f32 0x7F800000#32
  let main_v1 : FVec F S16x80x128x128 .f32 := broadcastInDim S16x80x128x128 ![] bcast_S_S16x80x128x128 main_cst
  let main_v2 : IVec S16x80x128x128 1 := cmpf .olt main_v0 main_v1
  let main_c : IVec S_ 1 := constantI S_ 1 1#1
  let main_v3 : IVec S_ 1 := (fun x v => Host.reduce IntOp.andi x v reducesTo_S16x80x128x128_S_d0_1_2_3 h_S_) main_v2 main_c
  main_v3
-- ==== Kernel.lean ====
abbrev S16x80x128x128 : Shape := ⟨4, ![16, 80, 128, 128]⟩
abbrev S1280x128x128 : Shape := ⟨3, ![1280, 128, 128]⟩
abbrev S128x128x128 : Shape := ⟨3, ![128, 128, 128]⟩
abbrev S128x1x128 : Shape := ⟨3, ![128, 1, 128]⟩
abbrev S128x129x128 : Shape := ⟨3, ![128, 129, 128]⟩
abbrev S128x130x128 : Shape := ⟨3, ![128, 130, 128]⟩
abbrev S128x130x1 : Shape := ⟨3, ![128, 130, 1]⟩
abbrev S128x130x129 : Shape := ⟨3, ![128, 130, 129]⟩
abbrev S128x130x130 : Shape := ⟨3, ![128, 130, 130]⟩

abbrev nBuf : Space → Nat
  | .hbm => 4
  | .vmem => 4
  | .smem => 0
  | _ => 0

abbrev bufTy : (tb : Table) → Fin (tcTables nBuf tb) → BufTy
  | .hbm, ⟨0, _⟩ => ⟨S16x80x128x128, .f32⟩
  | .hbm, ⟨1, _⟩ => ⟨S1280x128x128, .f32⟩
  | .hbm, ⟨2, _⟩ => ⟨S1280x128x128, .f32⟩
  | .hbm, ⟨3, _⟩ => ⟨S16x80x128x128, .f32⟩
  | .local _ .vmem, ⟨0, _⟩ => ⟨S128x128x128, .f32⟩
  | .local _ .vmem, ⟨1, _⟩ => ⟨S128x128x128, .f32⟩
  | .local _ .vmem, ⟨2, _⟩ => ⟨S128x128x128, .f32⟩
  | .local _ .vmem, ⟨3, _⟩ => ⟨S128x128x128, .f32⟩
  | _, _ => ⟨S16x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x80x128x128_S1280x128x128 : S16x80x128x128.ShapeCasts S1280x128x128
  inb_S128x128x128_S128x128x128_0_0_0 : ∀ a, (![0, 0, 0] : Fin 3 → Nat) a + S128x128x128.size a ≤ S128x128x128.size a
  h_S128x128x128 : 0 < S128x128x128.numel
  shapeCasts_S128x128x128_S128x128x128 : S128x128x128.ShapeCasts S128x128x128
  concatenates_S128x1x128_S128x128x128_S128x129x128_d1 : Shape.Concatenates [S128x1x128, S128x128x128] S128x129x128 1
  concatenates_S128x129x128_S128x1x128_S128x130x128_d1 : Shape.Concatenates [S128x129x128, S128x1x128] S128x130x128 1
  concatenates_S128x130x1_S128x130x128_S128x130x129_d2 : Shape.Concatenates [S128x130x1, S128x130x128] S128x130x129 2
  concatenates_S128x130x129_S128x130x1_S128x130x130_d2 : Shape.Concatenates [S128x130x129, S128x130x1] S128x130x130 2
  slices_S128x130x130_o0_0_0_S128x128x128 : S128x130x130.Slices ![0, 0, 0] S128x128x128
  slices_S128x130x130_o0_0_1_S128x128x128 : S128x130x130.Slices ![0, 0, 1] S128x128x128
  slices_S128x130x130_o0_0_2_S128x128x128 : S128x130x130.Slices ![0, 0, 2] S128x128x128
  slices_S128x130x130_o0_1_0_S128x128x128 : S128x130x130.Slices ![0, 1, 0] S128x128x128
  slices_S128x130x130_o0_1_1_S128x128x128 : S128x130x130.Slices ![0, 1, 1] S128x128x128
  slices_S128x130x130_o0_1_2_S128x128x128 : S128x130x130.Slices ![0, 1, 2] S128x128x128
  slices_S128x130x130_o0_2_0_S128x128x128 : S128x130x130.Slices ![0, 2, 0] S128x128x128
  slices_S128x130x130_o0_2_1_S128x128x128 : S128x130x130.Slices ![0, 2, 1] S128x128x128
  slices_S128x130x130_o0_2_2_S128x128x128 : S128x130x130.Slices ![0, 2, 2] S128x128x128
  shapeCasts_S1280x128x128_S16x80x128x128 : S1280x128x128.ShapeCasts S16x80x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x128.size a ≤ S1280x128x128.size a
  hwx0_0 : ∀ i : grid0.Coords, EltTy.bits .f32 = 32 ∨ (Rect.block (s := S1280x128x128) S128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x128.size a ≤ S1280x128x128.size a
  hwx0_1 : ∀ i : grid0.Coords, EltTy.bits .f32 = 32 ∨ (Rect.block (s := S1280x128x128) S128x128x128.size (cc0_transform_1 i) (hinb0_1 i)).WholeWords (EltTy.packing .f32)

variable [Facts₀]

abbrev win0_0 : Pipeline.Window sig grid0 :=
  Pipeline.Window.ofSpec (Memref.whole main_v0) S128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x80x128x128 : Shape := ⟨4, ![16, 80, 128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16x80x128x128, .f32⟩
  | .hbm, ⟨1, _⟩ => ⟨S_, .f32⟩
  | .hbm, ⟨2, _⟩ => ⟨S_, .f32⟩
  | .hbm, ⟨3, _⟩ => ⟨S16x80x128x128, .f32⟩
  | .hbm, ⟨4, _⟩ => ⟨S16x80x128x128, .i1⟩
  | .hbm, ⟨5, _⟩ => ⟨S_, .f32⟩
  | .hbm, ⟨6, _⟩ => ⟨S16x80x128x128, .f32⟩
  | .hbm, ⟨7, _⟩ => ⟨S16x80x128x128, .f32⟩
  | _, _ => ⟨S16x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x80x128x128_S16x80x128x128_w1s1p0_0_w1s1p0_0_w3s1p1_1_w3s1p1_1 : S16x80x128x128.ReduceWindows (![1, 1, 3, 3] : Fin 4 → Nat) ![1, 1, 1, 1] ![0, 0, 1, 1] ![0, 0, 1, 1] S16x80x128x128
  h_S_ : 0 < S_.numel
  bcast_S_S16x80x128x128 : S_.BroadcastsInDim S16x80x128x128 (![] : Fin 0 → Fin S16x80x128x128.rank)

variable [Facts₀]

class Facts : Prop extends Facts₀ where

variable [Facts]
-- ==== Proof.Spec.lean ====
/-
  The result both programs compute, as ONE function of the argument array.

  For a heat map `x : [16, 80, 128, 128]` the result at `(b, c, h, w)` is `x b c h w` when that entry equals the
  maximum of the 3×3 neighbourhood of `(h, w)` in the plane `(b, c)` — neighbours outside the plane counting as −∞ —
  and zero otherwise. The neighbourhood's maximum is taken as the left fold, from −∞, over the nine taps in
  row-major order `(dh, dw) = (0,0), (0,1), …, (2,2)`, tap `(dh, dw)` reading the plane at `(h + dh − 1, w + dw − 1)`.
  Both programs take the nine taps in exactly this order, so no law of `max` is needed: the statement is the same at
  every float instance, and it is stated over a plane reader `rd` so that the 3-D block, the 3-D array and the 4-D
  array all share it.
-/
import Idealize.ShloMosaic.PureOps
import Idealize.ShloMosaic.Lib.ValueIdx

noncomputable section

namespace Cert.Nms

open Idealize.ShloMosaic Idealize.ShloMosaic.ValueIdx

variable {F : FTy → Type} [FloatOps F]

/-- The word of −∞, the padding value and the fold's start. -/
abbrev negInf : F .f32 := FloatOps.ofBits .f32 0xFF800000#32

/-- Tap `(dh, dw)` of the window centred at `(h, w)`: the plane's entry at `(h + dh − 1, w + dw − 1)` when that
    position is inside the 128 × 128 plane, −∞ when it falls on the one-pixel border around it. -/
def tap (rd : Fin 128 → Fin 128 → F .f32) (h w : Fin 128) (dh dw : ℕ) : F .f32 :=
  if hin : (1 ≤ h.val + dh ∧ h.val + dh - 1 < 128) ∧ (1 ≤ w.val + dw ∧ w.val + dw - 1 < 128) then
    rd ⟨h.val + dh - 1, hin.1.2⟩ ⟨w.val + dw - 1, hin.2.2⟩
  else negInf

/-- The 3×3 neighbourhood's maximum: the nine taps folded from −∞, row by row. -/
def windowMax (rd : Fin 128 → Fin 128 → F .f32) (h w : Fin 128) : F .f32 :=
  FloatOps.maximumf (FloatOps.maximumf (FloatOps.maximumf (FloatOps.maximumf (FloatOps.maximumf (FloatOps.maximumf
    (FloatOps.maximumf (FloatOps.maximumf (FloatOps.maximumf negInf
      (tap rd h w 0 0)) (tap rd h w 0 1)) (tap rd h w 0 2))
      (tap rd h w 1 0)) (tap rd h w 1 1)) (tap rd h w 1 2))
      (tap rd h w 2 0)) (tap rd h w 2 1)) (tap rd h w 2 2)

/-- An entry survives when it equals its neighbourhood's maximum; every other entry becomes zero. -/
def keepPeak (rd : Fin 128 → Fin 128 → F .f32) (h w : Fin 128) : F .f32 :=
  Scalar.select (FloatOps.cmpf .oeq (windowMax rd h w) (rd h w)) (rd h w) (FloatOps.ofBits .f32 0x00000000#32)

/-- The result over the 4-D array: plane `(b, c)` is filtered by itself. -/
def peaks4 (x : (⟨4, ![16, 80, 128, 128]⟩ : Shape).Idx → F .f32) : (⟨4, ![16, 80, 128, 128]⟩ : Shape).Idx → F .f32 :=
  fun i => keepPeak (fun a b => x (ix4 (i 0) (i 1) a b)) (i 2) (i 3)

/-- The same over the array with the two leading axes merged: plane `q = 80 b + c`. -/
def peaks3 (x : (⟨3, ![1280, 128, 128]⟩ : Shape).Idx → F .f32) : (⟨3, ![1280, 128, 128]⟩ : Shape).Idx → F .f32 :=
  fun i => keepPeak (fun a b => x (ix3 (i 0) a b)) (i 1) (i 2)

end Cert.Nms

end
-- ==== Proof.KernelPayload.lean ====
/-
  The kernel body's stored value at an index of the block. The body pads its 128 × 128 × 128 block by one pixel of −∞ on
  each side of the two plane axes (four concatenations), takes the nine unit-stride 128 × 128 × 128 slices of the
  130 × 130 padded planes at offsets `(dh, dw)`, `dh, dw ∈ {0, 1, 2}`, folds them with `max` from −∞ in row-major
  order of `(dh, dw)`, and keeps the entry where it equals that maximum. Slice `(dh, dw)` at `(p, h, w)` is the padded
  plane `p` at `(h + dh, w + dw)`, which is tap `(dh, dw)` of the specification over plane `p` of the block: the
  stored value at `(p, h, w)` is `keepPeak` of plane `p`. Nothing here depends on the float instance.
-/
import proofs.«162040_j90855738179815_1_alg».proof.Proof.Gen.KernelIdeal.Skeleton
import proofs.«162040_j90855738179815_1_alg».proof.Proof.Spec
import Idealize.ShloMosaic.Lib.Pipeline.Value

noncomputable section

namespace Cert.KernelIdeal.Payload

open Cert.KernelIdeal Cert.KernelIdeal.Gen Idealize.ShloMosaic Idealize.ShloMosaic.ValueIdx Cert.Nms

variable {F : FTy → Type} [FloatOps F]

/-- The block with one pixel of `v` put around each of its planes: a row above and a row below (axis 1), then a
    column to the left and a column to the right (axis 2). -/
def padded {α : Type} (x : S128x128x128.Idx → α) (v : α) : S128x130x130.Idx → α :=
  concatenate S128x130x130 2
    [⟨S128x130x129, concatenate S128x130x129 2
        [⟨S128x130x1, broadcast S128x130x1 v⟩,
         ⟨S128x130x128, concatenate S128x130x128 1
            [⟨S128x129x128, concatenate S128x129x128 1 [⟨S128x1x128, broadcast S128x1x128 v⟩, ⟨S128x128x128, x⟩]
                concatenates_S128x1x128_S128x128x128_S128x129x128_d1⟩,
             ⟨S128x1x128, broadcast S128x1x128 v⟩]
            concatenates_S128x129x128_S128x1x128_S128x130x128_d1⟩]
        concatenates_S128x130x1_S128x130x128_S128x130x129_d2⟩,
     ⟨S128x130x1, broadcast S128x130x1 v⟩]
    concatenates_S128x130x129_S128x130x1_S128x130x130_d2

/-- The padded block at `(p, hh, ww)`, `hh, ww < 130`: the block's entry at `(p, hh − 1, ww − 1)` when
    `1 ≤ hh ≤ 128` and `1 ≤ ww ≤ 128`, the padding value on the border. -/
theorem padded_apply {α : Type} (x : S128x128x128.Idx → α) (v : α) (p : Fin 128) (hh ww : Fin 130) :
    padded x v (ix3 p hh ww)
      = if hin : (1 ≤ hh.val ∧ hh.val - 1 < 128) ∧ (1 ≤ ww.val ∧ ww.val - 1 < 128) then
          x (ix3 p ⟨hh.val - 1, hin.1.2⟩ ⟨ww.val - 1, hin.2.2⟩) else v := by
  unfold padded
  by_cases hw1 : ww.val < 129
  · -- left of the last column: the 129-wide piece
    refine (concatenate_pair_apply_left (t := S128x130x130) (s₁ := S128x130x129) (s₂ := S128x130x1) 2 _ _ _
      (ix3 p hh ww) rfl (ix3 p hh ⟨ww.val, hw1⟩)
      (fun b => by match b with | ⟨0, _⟩ => rfl | ⟨1, _⟩ => rfl | ⟨2, _⟩ => rfl)).trans ?_
    by_cases hw0 : 1 ≤ ww.val
    · -- right of the first column: the 128-wide piece, one column back
      refine (concatenate_pair_apply_right (t := S128x130x129) (s₁ := S128x130x1) (s₂ := S128x130x128) 2 _ _ _
        (ix3 p hh ⟨ww.val, hw1⟩) rfl rfl (ix3 p hh ⟨ww.val - 1, by omega⟩)
        (fun b hb => by
          match b, hb with
          | ⟨0, _⟩, _ => rfl
          | ⟨1, _⟩, _ => rfl
          | ⟨2, _⟩, hb => exact absurd (Fin.ext rfl) hb)
        (by show ww.val - 1 + 1 = ww.val; omega)).trans ?_
      by_cases hh1 : hh.val < 129
      · -- above the last row: the 129-high piece
        refine (concatenate_pair_apply_left (t := S128x130x128) (s₁ := S128x129x128) (s₂ := S128x1x128) 1 _ _ _
          (ix3 p hh ⟨ww.val - 1, by omega⟩) rfl (ix3 p ⟨hh.val, hh1⟩ ⟨ww.val - 1, by omega⟩)
          (fun b => by match b with | ⟨0, _⟩ => rfl | ⟨1, _⟩ => rfl | ⟨2, _⟩ => rfl)).trans ?_
        by_cases hh0 : 1 ≤ hh.val
        · -- below the first row: the block itself, one row back
          refine (concatenate_pair_apply_right (t := S128x129x128) (s₁ := S128x1x128) (s₂ := S128x128x128) 1 _ _ _
            (ix3 p ⟨hh.val, hh1⟩ ⟨ww.val - 1, by omega⟩) rfl rfl (ix3 p ⟨hh.val - 1, by omega⟩ ⟨ww.val - 1, by omega⟩)
            (fun b hb => by
              match b, hb with
              | ⟨0, _⟩, _ => rfl
              | ⟨1, _⟩, hb => exact absurd (Fin.ext rfl) hb
              | ⟨2, _⟩, _ => rfl)
            (by show hh.val - 1 + 1 = hh.val; omega)).trans ?_
          rw [dif_pos ⟨⟨hh0, by omega⟩, ⟨hw0, by omega⟩⟩]
        · -- the first row is padding
          refine (concatenate_pair_apply_left (t := S128x129x128) (s₁ := S128x1x128) (s₂ := S128x128x128) 1 _ _ _
            (ix3 p ⟨hh.val, hh1⟩ ⟨ww.val - 1, by omega⟩) rfl (ix3 p ⟨0, by decide⟩ ⟨ww.val - 1, by omega⟩)
            (fun b => by
              match b with
              | ⟨0, _⟩ => rfl
              | ⟨1, _⟩ => show 0 = hh.val; omega
              | ⟨2, _⟩ => rfl)).trans ?_
          rw [dif_neg (by omega)]
          rfl
      · -- the last row is padding
        refine (concatenate_pair_apply_right (t := S128x130x128) (s₁ := S128x129x128) (s₂ := S128x1x128) 1 _ _ _
          (ix3 p hh ⟨ww.val - 1, by omega⟩) rfl rfl (ix3 p ⟨0, by decide⟩ ⟨ww.val - 1, by omega⟩)
          (fun b hb => by
            match b, hb with
            | ⟨0, _⟩, _ => rfl
            | ⟨1, _⟩, hb => exact absurd (Fin.ext rfl) hb
            | ⟨2, _⟩, _ => rfl)
          (by show 0 + 129 = hh.val; have := hh.isLt; omega)).trans ?_
        rw [dif_neg (by omega)]
        rfl
    · -- the first column is padding
      refine (concatenate_pair_apply_left (t := S128x130x129) (s₁ := S128x130x1) (s₂ := S128x130x128) 2 _ _ _
        (ix3 p hh ⟨ww.val, hw1⟩) rfl (ix3 p hh ⟨0, by decide⟩)
        (fun b => by
          match b with
          | ⟨0, _⟩ => rfl
          | ⟨1, _⟩ => rfl
          | ⟨2, _⟩ => show 0 = ww.val; omega)).trans ?_
      rw [dif_neg (by omega)]
      rfl
  · -- the last column is padding
    refine (concatenate_pair_apply_right (t := S128x130x130) (s₁ := S128x130x129) (s₂ := S128x130x1) 2 _ _ _
      (ix3 p hh ww) rfl rfl (ix3 p hh ⟨0, by decide⟩)
      (fun b hb => by
        match b, hb with
        | ⟨0, _⟩, _ => rfl
        | ⟨1, _⟩, _ => rfl
        | ⟨2, _⟩, hb => exact absurd (Fin.ext rfl) hb)
      (by show 0 + 129 = ww.val; have := ww.isLt; omega)).trans ?_
    rw [dif_neg (by omega)]
    rfl

/-- Slice `(dh, dw)` of the −∞-padded block at `(p, h, w)` is tap `(dh, dw)` of plane `p` at `(h, w)`. -/
theorem slice_padded (x : S128x128x128.Idx → F .f32) (p h w : Fin 128) (dh dw : ℕ) (hdh : dh ≤ 2) (hdw : dw ≤ 2)
    (hs : S128x130x130.Slices ![0, dh, dw] S128x128x128) :
    extractStridedSlice S128x128x128 ![0, dh, dw] (padded x negInf) hs (ix3 p h w)
      = tap (fun a b => x (ix3 p a b)) h w dh dw := by
  refine (extractStridedSlice_apply ![0, dh, dw] (padded x negInf) hs (ix3 p h w)
    (ix3 p ⟨h.val + dh, by omega⟩ ⟨w.val + dw, by omega⟩) (fun a => by
      match a with
      | ⟨0, _⟩ => show p.val = 0 + p.val; omega
      | ⟨1, _⟩ => show h.val + dh = dh + h.val; omega
      | ⟨2, _⟩ => show w.val + dw = dw + w.val; omega)).trans ?_
  rw [padded_apply]
  rfl

/-- The body's operations with the padded block named. -/
def blockPeaks (x0 : Vec F S128x128x128 .f32) : FVec F S128x128x128 .f32 :=
  select (cmpf .oeq
    (maximumf (maximumf (maximumf (maximumf (maximumf (maximumf (maximumf (maximumf (maximumf
      (broadcast S128x128x128 negInf)
      (extractStridedSlice S128x128x128 ![0, 0, 0] (padded x0 negInf) slices_S128x130x130_o0_0_0_S128x128x128))
      (extractStridedSlice S128x128x128 ![0, 0, 1] (padded x0 negInf) slices_S128x130x130_o0_0_1_S128x128x128))
      (extractStridedSlice S128x128x128 ![0, 0, 2] (padded x0 negInf) slices_S128x130x130_o0_0_2_S128x128x128))
      (extractStridedSlice S128x128x128 ![0, 1, 0] (padded x0 negInf) slices_S128x130x130_o0_1_0_S128x128x128))
      (extractStridedSlice S128x128x128 ![0, 1, 1] (padded x0 negInf) slices_S128x130x130_o0_1_1_S128x128x128))
      (extractStridedSlice S128x128x128 ![0, 1, 2] (padded x0 negInf) slices_S128x130x130_o0_1_2_S128x128x128))
      (extractStridedSlice S128x128x128 ![0, 2, 0] (padded x0 negInf) slices_S128x130x130_o0_2_0_S128x128x128))
      (extractStridedSlice S128x128x128 ![0, 2, 1] (padded x0 negInf) slices_S128x130x130_o0_2_1_S128x128x128))
      (extractStridedSlice S128x128x128 ![0, 2, 2] (padded x0 negInf) slices_S128x130x130_o0_2_2_S128x128x128))
    x0) x0 (broadcast S128x128x128 (FloatOps.ofBits .f32 0x00000000#32))

/-- The stored value is those operations: the identity shape cast of the loaded block dropped. -/
theorem pay_eq (x0 : Vec F S128x128x128 .f32) : k0_pay1 x0 = blockPeaks x0 := by
  have e : k0_pay1 x0 = blockPeaks (shapeCast S128x128x128 x0 shapeCasts_S128x128x128_S128x128x128) := rfl
  rw [e, shapeCast_self]

/-- The stored value at `(p, h, w)` is the specification over plane `p` of the loaded block. -/
theorem pay_apply (x0 : Vec F S128x128x128 .f32) (p h w : Fin 128) :
    k0_pay1 x0 (ix3 p h w) = keepPeak (fun a b => x0 (ix3 p a b)) h w := by
  rw [pay_eq]
  unfold keepPeak windowMax
  rw [← slice_padded x0 p h w 0 0 (by decide) (by decide) slices_S128x130x130_o0_0_0_S128x128x128,
    ← slice_padded x0 p h w 0 1 (by decide) (by decide) slices_S128x130x130_o0_0_1_S128x128x128,
    ← slice_padded x0 p h w 0 2 (by decide) (by decide) slices_S128x130x130_o0_0_2_S128x128x128,
    ← slice_padded x0 p h w 1 0 (by decide) (by decide) slices_S128x130x130_o0_1_0_S128x128x128,
    ← slice_padded x0 p h w 1 1 (by decide) (by decide) slices_S128x130x130_o0_1_1_S128x128x128,
    ← slice_padded x0 p h w 1 2 (by decide) (by decide) slices_S128x130x130_o0_1_2_S128x128x128,
    ← slice_padded x0 p h w 2 0 (by decide) (by decide) slices_S128x130x130_o0_2_0_S128x128x128,
    ← slice_padded x0 p h w 2 1 (by decide) (by decide) slices_S128x130x130_o0_2_1_S128x128x128,
    ← slice_padded x0 p h w 2 2 (by decide) (by decide) slices_S128x130x130_o0_2_2_S128x128x128]
  rfl

end Cert.KernelIdeal.Payload

end
-- ==== Proof.SpecReshape.lean ====
/-
  Merging the two leading axes commutes with the filter. The row-major position of `(b, c, h, w)` in [16, 80, 128, 128] is
  that of `(80 b + c, h, w)` in [1280, 128, 128], so reshaping the 4-D array to 3-D, filtering every plane, and reshaping
  back is filtering every plane of the 4-D array: plane `(b, c)` of the one is plane `80 b + c` of the other.
-/
import proofs.«162040_j90855738179815_1_alg».proof.Proof.Spec
import Idealize.ShloMosaic.Lib.Pipeline.Value

noncomputable section

namespace Cert.Nms

open Idealize.ShloMosaic Idealize.ShloMosaic.ValueIdx

variable {F : FTy → Type} [FloatOps F]

abbrev S4 : Shape := ⟨4, ![16, 80, 128, 128]⟩
abbrev S3 : Shape := ⟨3, ![1280, 128, 128]⟩

/-- `(b, c, a, b')` and `(80 b + c, a, b')` have the same row-major position. -/
theorem merged_position (b : Fin 16) (c : Fin 80) (a b' : Fin 128) (hq : b.val * 80 + c.val < 1280) :
    (S4.rowMajor (ix4 b c a b')).val = (S3.rowMajor (ix3 (⟨b.val * 80 + c.val, hq⟩ : Fin 1280) a b')).val := by
  rw [Shape.rowMajor_val_four, Shape.rowMajor_val_three]
  rfl

/-- Reshape to planes, filter, reshape back: the filter of the 4-D array. -/
theorem reshape_peaks (x : S4.Idx → F .f32) (h3 : S4.ShapeCasts S3) (h4 : S3.ShapeCasts S4) :
    shapeCast S4 (peaks3 (shapeCast S3 x h3)) h4 = peaks4 x := by
  funext i
  obtain ⟨b, c, h, w, rfl⟩ : ∃ (b : Fin 16) (c : Fin 80) (h w : Fin 128), i = ix4 b c h w := ⟨i 0, i 1, i 2, i 3, eq_ix4 i⟩
  have hq : b.val * 80 + c.val < 1280 := by have := b.isLt; have := c.isLt; omega
  refine (shapeCast_apply _ h4 (ix4 b c h w) (ix3 (⟨b.val * 80 + c.val, hq⟩ : Fin 1280) h w) (merged_position b c h w hq).symm).trans ?_
  show keepPeak (fun a b' => shapeCast S3 x h3 (ix3 (⟨b.val * 80 + c.val, hq⟩ : Fin 1280) a b')) h w
    = keepPeak (fun a b' => x (ix4 b c a b')) h w
  refine congrArg (fun rd => keepPeak rd h w) (funext fun a => funext fun b' => ?_)
  exact shapeCast_apply x h3 (ix3 (⟨b.val * 80 + c.val, hq⟩ : Fin 1280) a b') (ix4 b c a b') (merged_position b c a b' hq)

end Cert.Nms

end
-- ==== Proof.KernelValue.lean ====
/-
  What the kernel program leaves in its result. The input array is reshaped to 1280 planes; grid point `t` loads planes
  `128 t … 128 t + 127` and writes back, to the same planes of the output array, the filter of each loaded plane; the ten
  blocks tile the output array, so after the run it holds the filter of every plane of the reshaped input; the reshape
  after the region turns it back into [16, 80, 128, 128], which is the filter of the 4-D argument.
-/
import proofs.«162040_j90855738179815_1_alg».proof.Proof.Gen.KernelIdeal.Frame
import proofs.«162040_j90855738179815_1_alg».proof.Proof.KernelPayload
import proofs.«162040_j90855738179815_1_alg».proof.Proof.SpecReshape
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Payload Cert.Nms
open Idealize.ShloMosaic Idealize.ShloMosaic.TcCoe Idealize.ShloMosaic.ValueIdx Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- Both windows' block index at point `t` is `(t, 0, 0)`. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Every group of 128 planes is some point's block. -/
theorem block_onto : ∀ q : Fin 10, ∃ t : Fin cfg0.N, win0_1.index t = ![q.val, 0, 0] :=
  (by decide +kernel : ∀ q : Fin 10, ∃ t : Fin grid0.N, win0_1.index t = ![q.val, 0, 0])

/-- The stored value at an index `j` of the block is the planewise filter of any array `X` at an index `i` on the same
    row and column whose plane is the block's plane `j 0`. -/
theorem pay_block (x0 : Vec F S128x128x128 .f32) (X : S1280x128x128.Idx → F .f32) (j : S128x128x128.Idx) (i : S1280x128x128.Idx)
    (hi1 : (i 1).val = (j 1).val) (hi2 : (i 2).val = (j 2).val)
    (hx : ∀ a b : Fin 128, x0 (ix3 (j 0) a b) = X (ix3 (i 0) a b)) :
    k0_pay1 x0 j = peaks3 X i := by
  obtain ⟨p, h, w, rfl⟩ : ∃ (p h w : Fin 128), j = ix3 p h w := ⟨j 0, j 1, j 2, eq_ix3 j⟩
  rw [pay_apply]
  show keepPeak (fun a b => x0 (ix3 p a b)) h w = keepPeak (fun a b => X (ix3 (i 0) a b)) (i 1) (i 2)
  have e1 : i 1 = h := Fin.ext hi1
  have e2 : i 2 = w := Fin.ext hi2
  rw [e1, e2]
  exact congrArg (fun rd => keepPeak rd h w) (funext fun a => funext fun b => hx a b)

/-- WHAT POINT `t` WRITES BACK is block `t` of the planewise filter of the reshaped input. -/
theorem flushed_eq (c : Dev nD) (t : Fin cfg0.N) :
    (dats m 0 c).flushed 1 t = ((cfg0.win 1).blk t).view.read (Elt F) (peaks3 (V m c main_v0)) := by
  show (cfg0.win 1).cut (grid0.coords t) ((dats m 0 c).after 1 t) = _
  rw [after0_1]
  unfold out0_1
  rw [View.canon_unit_zero zero_offsets]
  simp only [View.ld_unit_zero (S := S128x128x128) zero_offsets]
  obtain ⟨e0, e1, e2, f0, f1, f2⟩ := block_index t
  funext j
  show k0_pay1 (iblk m c 0 t) j = peaks3 (V m c main_v0) (((cfg0.win 1).blk t).view.emb j)
  refine pay_block (iblk m c 0 t) (V m c main_v0) j (((cfg0.win 1).blk t).view.emb j) ?_ ?_ (fun a b => ?_)
  · show win0_1.index t (1 : Fin 3) * 128 + 1 * (j 1).val = (j 1).val; omega
  · show win0_1.index t (2 : Fin 3) * 128 + 1 * (j 2).val = (j 2).val; omega
  · show V m c main_v0 (((cfg0.win 0).blk t).view.emb (ix3 (j 0) a b)) = V m c main_v0 (ix3 ((((cfg0.win 1).blk t).view.emb j) 0) a b)
    refine congrArg (V m c main_v0) (funext fun d => Fin.ext ?_)
    match d with
    | ⟨0, _⟩ => show win0_0.index t (0 : Fin 3) * 128 + 1 * (j 0).val = win0_1.index t (0 : Fin 3) * 128 + 1 * (j 0).val; omega
    | ⟨1, _⟩ => show win0_0.index t (1 : Fin 3) * 128 + 1 * a.val = a.val; omega
    | ⟨2, _⟩ => show win0_0.index t (2 : Fin 3) * 128 + 1 * b.val = b.val; omega

/-- An index of the output array is in point `t`'s block iff each coordinate is in the block's range on its axis. -/
theorem mem_blk (t : Fin cfg0.N) (i : S1280x128x128.Idx) :
    i ∈ ((cfg0.win 1).blk t).view.set ↔ ∀ a : Fin 3, win0_1.index t a * S128x128x128.size a ≤ (i a).val ∧ (i a).val < win0_1.index t a * S128x128x128.size a + S128x128x128.size a := by
  show i ∈ ((View.whole main_v1).slice (win0_1.rect t)).set ↔ _
  rw [View.set_slice_whole, Rect.mem_set_unit]
  exact Iff.rfl

/-- The ten blocks tile the output array: plane `q` is in the block of point `q / 128`. -/
theorem cover (i : S1280x128x128.Idx) : ∃ t : Fin cfg0.N, (cfg0.win 1).flush t = true ∧ i ∈ ((cfg0.win 1).blk t).view.set := by
  have hi0 : (i 0).val < 1280 := (i 0).isLt
  have hi1 : (i 1).val < 128 := (i 1).isLt
  have hi2 : (i 2).val < 128 := (i 2).isLt
  obtain ⟨t, ht⟩ := block_onto ⟨(i 0).val / 128, by omega⟩
  have q0 : win0_1.index t (0 : Fin 3) = (i 0).val / 128 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 128 ≤ (i 0).val ∧ (i 0).val < win0_1.index t (0 : Fin 3) * 128 + 128; omega
  | ⟨1, _⟩ => show win0_1.index t (1 : Fin 3) * 128 ≤ (i 1).val ∧ (i 1).val < win0_1.index t (1 : Fin 3) * 128 + 128; omega
  | ⟨2, _⟩ => show win0_1.index t (2 : Fin 3) * 128 ≤ (i 2).val ∧ (i 2).val < win0_1.index t (2 : Fin 3) * 128 + 128; omega

/-- THE OUTPUT ARRAY after the region: the planewise filter of the reshaped input. -/
theorem final (c : Dev nD) : (dats m 0 c).arrAt 1 cfg0.N = peaks3 (V m c main_v0) :=
  (dats m 0 c).arrAt_eq_of_cover 1 (peaks3 (V m c main_v0)) (fun t _ => flushed_eq m c t) cover

/-- The region finds the input reshaped to 1280 planes. -/
theorem V_main_v0 (c : Dev nD) :
    (V m c main_v0 : S1280x128x128.Idx → F .f32)
      = shapeCast S1280x128x128 (m ((c : Thread nD τ).loc main_arg0)) shapeCasts_S16x80x128x128_S1280x128x128 := by
  show StableHlo.after hostOps0 (fun b => m (c, b)) (Proc.devRef .tc main_v0) = _
  after_results
  rfl

/-- The reshape after the region reads the output array as the region left it. -/
theorem tail_main_v2 (c : Dev nD) :
    (Pipeline.afterTail₀ cfgs (dats m) 0 (V0 m) [hostOps1] c main_v2 : S16x80x128x128.Idx → F .f32)
      = shapeCast S16x80x128x128 ((dats m 0 c).arrAt 1 cfg0.N) shapeCasts_S1280x128x128_S16x80x128x128 := by
  unfold Pipeline.afterTail₀
  show StableHlo.after hostOps1 _ (Proc.devRef .tc main_v2) = _
  after_results
  exact congrArg (fun A => shapeCast S16x80x128x128 A shapeCasts_S1280x128x128_S16x80x128x128)
    (Pipeline.withArrays_arr spec0 launch0.win.arr_inj c (V0 m c) (fun w => (dats m 0 c).arrAt w cfg0.N) 1)

/-- THE RUN, read: the result is the filter of the argument, which is unchanged. -/
theorem run : θ_run defs (onTc (τ := τ) (main (F := F))) ⟨m, fun _ => 0, ρ⟩ fun r => ∀ c : Dev nD,
      r.2.mem ((c : Thread nD τ).loc main_v2) = peaks4 (m ((c : Thread nD τ).loc main_arg0))
      ∧ r.2.mem ((c : Thread nD τ).loc main_arg0) = m ((c : Thread nD τ).loc main_arg0) :=
  (θ_run defs _ _).mono (fun r h c => ⟨
      (((h c).2 main_v2 (Pipeline.mem_restRefs_of main_v2 (by decide) (by decide))).trans (tail_main_v2 m c)).trans (by
        rw [final, V_main_v0]
        exact reshape_peaks _ _ _),
      ((h c).2 main_arg0 (Pipeline.mem_restRefs_of main_arg0 (by decide) (by decide))).trans (W_main_arg0 m (dats m) c)⟩)
    (run_main m ρ)

end Cert.KernelIdeal.KValue

end
-- ==== Proof.RefValue.lean ====
/-
  The reference at an index. Its `reduce_window` is the left fold of `max`, from −∞, over the nine positions of the
  [1, 1, 3, 3] window in row-major order, a position outside the (one-pixel padded) plane contributing −∞: position
  `n` is tap `(n / 3, n % 3)` of the specification, so the fold is `windowMax` term by term, and the comparison and
  the select after it are `keepPeak`.
-/
import proofs.«162040_j90855738179815_1_alg».proof.Proof.Gen.ReferenceIdeal.Read
import proofs.«162040_j90855738179815_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Nms

variable {F : FTy → Type} [FloatOps F]

/-- The window's own shape: its positions are enumerated in this shape's row-major order. -/
abbrev W9 : Shape := ⟨4, ![1, 1, 3, 3]⟩

/-- The window has nine positions, 0 to 8. -/
theorem positions : List.finRange W9.numel = [⟨0, by decide⟩, ⟨1, by decide⟩, ⟨2, by decide⟩, ⟨3, by decide⟩,
    ⟨4, by decide⟩, ⟨5, by decide⟩, ⟨6, by decide⟩, ⟨7, by decide⟩, ⟨8, by decide⟩] := by decide

/-- Position `n` sits at offset `(0, 0, n / 3, n % 3)` inside the window. -/
theorem position_coord : ∀ (n : Fin W9.numel) (a : Fin 4),
    (W9.rowMajor.symm n a).val = (![0, 0, n.val / 3, n.val % 3] : Fin 4 → ℕ) a := by decide

/-- A window position at offset `(dh, dw)` from `(b, c, h, w)`, read through the padding `[0, 0, 1, 1]`, is tap
    `(dh, dw)` of plane `(b, c)`: inside the array where `1 ≤ h + dh ≤ 128` and `1 ≤ w + dw ≤ 128`, and then at
    `(b, c, h + dh − 1, w + dw − 1)`. -/
theorem window_term (x : S16x80x128x128.Idx → F .f32) (b : Fin 16) (c : Fin 80) (h w : Fin 128) (dh dw : ℕ) (p : Fin 4 → ℕ)
    {dec : Decidable (∀ a : Fin S16x80x128x128.rank, (![0, 0, 1, 1] : Fin 4 → ℕ) a ≤ p a ∧ p a - (![0, 0, 1, 1] : Fin 4 → ℕ) a < S16x80x128x128.size a)}
    (hp0 : p 0 = b.val) (hp1 : p 1 = c.val) (hp2 : p 2 = h.val + dh) (hp3 : p 3 = w.val + dw) :
    (if hin : ∀ a : Fin S16x80x128x128.rank, (![0, 0, 1, 1] : Fin 4 → ℕ) a ≤ p a ∧ p a - (![0, 0, 1, 1] : Fin 4 → ℕ) a < S16x80x128x128.size a then
        x (fun a => ⟨p a - (![0, 0, 1, 1] : Fin 4 → ℕ) a, (hin a).2⟩) else negInf)
      = tap (fun a b' => x (ix4 b c a b')) h w dh dw := by
  unfold tap
  by_cases hc : (1 ≤ h.val + dh ∧ h.val + dh - 1 < 128) ∧ (1 ≤ w.val + dw ∧ w.val + dw - 1 < 128)
  · have hin : ∀ a : Fin S16x80x128x128.rank, (![0, 0, 1, 1] : Fin 4 → ℕ) a ≤ p a ∧ p a - (![0, 0, 1, 1] : Fin 4 → ℕ) a < S16x80x128x128.size a := by
      intro a
      match a with
      | ⟨0, _⟩ => exact ⟨Nat.zero_le _, by show p 0 - 0 < 16; have := b.isLt; omega⟩
      | ⟨1, _⟩ => exact ⟨Nat.zero_le _, by show p 1 - 0 < 80; have := c.isLt; omega⟩
      | ⟨2, _⟩ => exact ⟨by show 1 ≤ p 2; omega, by show p 2 - 1 < 128; omega⟩
      | ⟨3, _⟩ => exact ⟨by show 1 ≤ p 3; omega, by show p 3 - 1 < 128; omega⟩
    rw [dif_pos hin, dif_pos hc]
    refine congrArg x (funext fun a => ?_)
    match a with
    | ⟨0, _⟩ => exact Fin.ext (by show p 0 - 0 = b.val; omega)
    | ⟨1, _⟩ => exact Fin.ext (by show p 1 - 0 = c.val; omega)
    | ⟨2, _⟩ => exact Fin.ext (by show p 2 - 1 = h.val + dh - 1; omega)
    | ⟨3, _⟩ => exact Fin.ext (by show p 3 - 1 = w.val + dw - 1; omega)
  · have hin : ¬ ∀ a : Fin S16x80x128x128.rank, (![0, 0, 1, 1] : Fin 4 → ℕ) a ≤ p a ∧ p a - (![0, 0, 1, 1] : Fin 4 → ℕ) a < S16x80x128x128.size a := by
      intro H
      have h2 : 1 ≤ p 2 ∧ p 2 - 1 < 128 := H 2
      have h3 : 1 ≤ p 3 ∧ p 3 - 1 < 128 := H 3
      exact hc ⟨by omega, by omega⟩
    rw [dif_neg hin, dif_neg hc]

/-- The windowed maximum at `(b, c, h, w)` is the specification's fold of the nine taps of plane `(b, c)`: position
    `n` of the window is tap `(n / 3, n % 3)`. -/
theorem val_main_v1_apply (x : S16x80x128x128.Idx → F .f32) (b : Fin 16) (c : Fin 80) (h w : Fin 128) :
    val_main_v1 (F := F) x (ix4 b c h w) = windowMax (fun a b' => x (ix4 b c a b')) h w := by
  unfold val_main_v1 Host.reduceWindow
  dsimp only
  rw [val_main_v0_apply, val_main_cst_apply]
  refine (List.foldl_ext _ (fun r n => FloatOps.maximumf r (tap (fun a b' => x (ix4 b c a b')) h w (n.val / 3) (n.val % 3))) _
    (fun r n _ => congrArg (FloatOps.maximumf r) ?_)).trans ?_
  · refine window_term x b c h w (n.val / 3) (n.val % 3)
      (fun a => ((ix4 b c h w) a).val * (![1, 1, 1, 1] : Fin 4 → ℕ) a + (W9.rowMajor.symm n a).val) ?_ ?_ ?_ ?_
    · show b.val * 1 + (W9.rowMajor.symm n 0).val = b.val
      rw [position_coord n 0]; show b.val * 1 + 0 = b.val; omega
    · show c.val * 1 + (W9.rowMajor.symm n 1).val = c.val
      rw [position_coord n 1]; show c.val * 1 + 0 = c.val; omega
    · show h.val * 1 + (W9.rowMajor.symm n 2).val = h.val + n.val / 3
      rw [position_coord n 2]; show h.val * 1 + n.val / 3 = h.val + n.val / 3; omega
    · show w.val * 1 + (W9.rowMajor.symm n 3).val = w.val + n.val % 3
      rw [position_coord n 3]; show w.val * 1 + n.val % 3 = w.val + n.val % 3; omega
  · show List.foldl _ _ (List.finRange W9.numel) = _
    rw [positions]
    rfl

/-- The reference's result is the specification: the windowed maximum compared with the entry, the entry kept where
    they are equal and zero put elsewhere. -/
theorem val_main_v3_eq_peaks4 (x : S16x80x128x128.Idx → F .f32) : val_main_v3 (F := F) x = peaks4 x := by
  funext i
  obtain ⟨b, c, h, w, rfl⟩ : ∃ (b : Fin 16) (c : Fin 80) (h w : Fin 128), i = ix4 b c h w := ⟨i 0, i 1, i 2, i 3, eq_ix4 i⟩
  rw [val_main_v3_apply, val_main_v2_apply, val_main_v1_apply, val_main_call0_v0_apply, val_main_cst_0_apply]
  rfl

end Cert.ReferenceIdeal.RefValue

end
-- ==== Proof.lean ====
/-
  Non-maximum suppression with a 3×3 window on a heat map `x : [16, 80, 128, 128]`: an entry is kept when it equals the
  maximum of its 3×3 neighbourhood in its own plane (positions outside the plane counting as −∞), and replaced by zero
  otherwise.

  The kernel reshapes `x` to 1280 planes, and per grid point pads 128 planes with a border of −∞, folds the nine shifted
  128 × 128 slices with `max` from −∞ in row-major order of the shift, compares with the plane and selects; the result
  is reshaped back. The reference takes `reduce_window` with a [1, 1, 3, 3] window, padding one pixel of −∞ on the two
  plane axes, which is the left fold of `max` from −∞ over the same nine positions in the same order, then compares and
  selects. Tap by tap the two folds read the same entry of `x` (or −∞ on the border), so both results are the one
  function `Cert.Nms.peaks4 x` (Proof/Spec.lean) — no property of `max` and no finiteness of the input is used, and the
  idealization rewrote nothing, so `preserves` is trivial.

  Proof/KernelPayload.lean reads the kernel body's stored value at an index; Proof/KernelValue.lean carries it through
  the grid's ten blocks and the two reshapes; Proof/RefValue.lean reads the reference at an index; Proof/SpecReshape.lean
  is the one index identity `(b, c, h, w) ↦ (80 b + c, h, w)` between the 4-D and the 3-D arrangement.
-/
import proofs.«162040_j90855738179815_1_alg».proof.Defs
import proofs.«162040_j90855738179815_1_alg».proof.Proof.Gen.Kernel
import proofs.«162040_j90855738179815_1_alg».proof.Proof.Gen.Kernel.Skeleton
import proofs.«162040_j90855738179815_1_alg».proof.Proof.Gen.Kernel.Launch
import proofs.«162040_j90855738179815_1_alg».proof.Proof.Gen.Kernel.Points
import proofs.«162040_j90855738179815_1_alg».proof.Proof.Gen.Kernel.Frame
import proofs.«162040_j90855738179815_1_alg».proof.Proof.Gen.KernelIdeal
import proofs.«162040_j90855738179815_1_alg».proof.Proof.Gen.KernelIdeal.Skeleton
import proofs.«162040_j90855738179815_1_alg».proof.Proof.Gen.KernelIdeal.Launch
import proofs.«162040_j90855738179815_1_alg».proof.Proof.Gen.KernelIdeal.Points
import proofs.«162040_j90855738179815_1_alg».proof.Proof.Gen.KernelIdeal.Frame
import proofs.«162040_j90855738179815_1_alg».proof.Proof.Gen.ReferenceIdeal
import proofs.«162040_j90855738179815_1_alg».proof.Proof.Gen.ReferenceIdeal.Run
import proofs.«162040_j90855738179815_1_alg».proof.Proof.Gen.ReferenceIdeal.Read
import proofs.«162040_j90855738179815_1_alg».proof.Proof.Gen.Pre_finite_inputs
import proofs.«162040_j90855738179815_1_alg».proof.Proof.KernelValue
import proofs.«162040_j90855738179815_1_alg».proof.Proof.RefValue
import Idealize.ShloMosaic.Adequacy
import Idealize.ShloMosaic.Init

noncomputable section

namespace Cert.Proof

open Idealize.ShloMosaic Idealize.SL.Sem

/-- The word-level kernel runs and keeps its argument. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both programs end with the filter `peaks4` of the common argument in their result. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨?_, (h c).2⟩)
    (Cert.ReferenceIdeal.Value.run (F := Ideal) m' ρ')
  rw [(h c).1, hagree c]
  exact (Cert.ReferenceIdeal.Read.val_main_v3_eq _).trans (Cert.ReferenceIdeal.RefValue.val_main_v3_eq_peaks4 _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
